-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S1x128 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S128x1 : Shape := ⟨2, ![128, 1]⟩
abbrev S1x1 : Shape := ⟨2, ![1, 1]⟩
abbrev S5000x1 : Shape := ⟨2, ![5000, 1]⟩

abbrev nBuf : Space → Nat
  | .hbm => 107
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S_, .f32⟩
  | .hbm, ⟨89, _⟩ => ⟨S800000, .f32⟩
  | .hbm, ⟨90, _⟩ => ⟨S_, .f32⟩
  | .hbm, ⟨91, _⟩ => ⟨S50000, .f32⟩
  | .hbm, ⟨92, _⟩ => ⟨S800000x1, .i32⟩
  | .hbm, ⟨93, _⟩ => ⟨S50000, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x128, .f32⟩
  | .hbm, ⟨99, _⟩ => ⟨S50000x128, .f32⟩
  | .hbm, ⟨100, _⟩ => ⟨S128x128, .f32⟩
  | .hbm, ⟨101, _⟩ => ⟨S128x128, .f32⟩
  | .hbm, ⟨102, _⟩ => ⟨S1x128, .f32⟩
  | .hbm, ⟨103, _⟩ => ⟨S50000x128, .f32⟩
  | .hbm, ⟨104, _⟩ => ⟨S128x1, .f32⟩
  | .hbm, ⟨105, _⟩ => ⟨S1x1, .f32⟩
  | .hbm, ⟨106, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x1, .f32⟩
  | .local _ .vmem, ⟨30, _⟩ => ⟨S1x1, .f32⟩
  | .local _ .vmem, ⟨31, _⟩ => ⟨S5000x1, .f32⟩
  | .local _ .vmem, ⟨32, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S1x128_S128x1_1_0 : S1x128.Transposes [1, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x1 : Shape := ⟨2, ![128, 1]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S1x128, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S128x128, .f32⟩
  | 43 => ⟨S50000x128, .f32⟩
  | 44 => ⟨S1x128, .f32⟩
  | 45 => ⟨S50000x128, .f32⟩
  | 46 => ⟨S50000x128, .f32⟩
  | 47 => ⟨S128x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S128x128, .f32⟩
  | 79 => ⟨S50000x128, .f32⟩
  | 80 => ⟨S1x128, .f32⟩
  | 81 => ⟨S50000x128, .f32⟩
  | 82 => ⟨S50000x128, .f32⟩
  | 83 => ⟨S128x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x128, .f32⟩
  | 113 => ⟨S50000x128, .f32⟩
  | 114 => ⟨S128x128, .f32⟩
  | 115 => ⟨S50000x128, .f32⟩
  | 116 => ⟨S1x128, .f32⟩
  | 117 => ⟨S50000x128, .f32⟩
  | 118 => ⟨S50000x128, .f32⟩
  | 119 => ⟨S128x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S128x1, .f32⟩
  | 126 => ⟨S50000x1, .f32⟩
  | 127 => ⟨S1x1, .f32⟩
  | _ => ⟨S50000x128, .f32⟩

abbrev hbmTy0_1 (i : Nat) : BufTy := match i % 128 with
  | 0 => ⟨S50000x1, .f32⟩
  | 1 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelStretch.lean ====
/-
  The host operations between the kernels, read as functions of what they find.

  Before each layer's kernel the host averages the node table over incoming edges (gather the source rows, add them
  into their target rows, divide by the edge count or one), transposes the layer's two matrices and lays its bias out
  as one row; before the head's kernel it transposes the head's row into a column and lays the head's bias out as a 1×1
  table. Read from any contents W of the buffers: each operation's result is its function of its operands' contents,
  and a buffer no operation of the stretch writes holds what it held.
-/
import proofs.«123665_j2534030704731_1_alg».proof.Proof.Gen.KernelIdeal.Launch
import Idealize.ShloMosaic.Lib.StableHlo.Run
import Idealize.ShloMosaic.PureOps.Ideal

set_option maxRecDepth 16384
set_option maxHeartbeats 4000000

noncomputable section

namespace Cert.KernelIdeal.Stretch

open Idealize.ShloMosaic Idealize.ShloMosaic.TcCoe Idealize.SL.Sem Idealize.ShloMosaic.StableHlo
open Cert.KernelIdeal Cert.KernelIdeal.Gen

/-- The source words of the edges: row 0 of the edge list. -/
def srcW (ei : IVec S2x800000 32) : IVec S800000 32 :=
  shapeCast _ (extractStridedSlice S1x800000 ![0, 0] ei slices_S2x800000_S1x800000_0_0) shapeCasts_S1x800000_S800000

/-- The target words of the edges: row 1 of the edge list. -/
def dstW (ei : IVec S2x800000 32) : IVec S800000 32 :=
  shapeCast _ (extractStridedSlice S1x800000 ![1, 0] ei slices_S2x800000_S1x800000_1_0) shapeCasts_S1x800000_S800000

/-- The mean of a node table over each node's incoming edges: the source rows (a negative word wrapped by the table's
    length) added into their target rows, divided by the count of edges into the row or by one where there is none. -/
def meanOf (s d : IVec S800000 32) (h : FVec Ideal S50000x128 .f32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

variable (W : Valuation τ sig (Elt Ideal))

/-! ## Before the first layer -/

theorem src0 : StableHlo.after (hostOps0 (F := Ideal)) W (Proc.devRef .tc main_v1) = srcW (W (Proc.devRef .tc main_arg1)) := by
  after_results_simp <;> rfl
theorem dst0 : StableHlo.after (hostOps0 (F := Ideal)) W (Proc.devRef .tc main_v3) = dstW (W (Proc.devRef .tc main_arg1)) := by
  after_results_simp <;> rfl
theorem mean0 : StableHlo.after (hostOps0 (F := Ideal)) W (Proc.devRef .tc main_v22)
    = meanOf (srcW (W (Proc.devRef .tc main_arg1))) (dstW (W (Proc.devRef .tc main_arg1))) (W (Proc.devRef .tc main_arg0)) := by
  after_results_simp <;> rfl
theorem matA0 : StableHlo.after (hostOps0 (F := Ideal)) W (Proc.devRef .tc main_v23)
    = transpose S128x128 [1, 0] (W (Proc.devRef .tc main_arg2)) transposes_S128x128_S128x128_1_0 := by
  after_results_simp <;> rfl
theorem bias0 : StableHlo.after (hostOps0 (F := Ideal)) W (Proc.devRef .tc main_v25)
    = shapeCast S1x128 (W (Proc.devRef .tc main_arg3)) shapeCasts_S128_S1x128 := by
  after_results_simp <;> rfl
theorem matC0 : StableHlo.after (hostOps0 (F := Ideal)) W (Proc.devRef .tc main_v24)
    = transpose S128x128 [1, 0] (W (Proc.devRef .tc main_arg4)) transposes_S128x128_S128x128_1_0 := by
  after_results_simp <;> rfl
/-- The arguments read later are not written. -/
theorem keep0 :
    StableHlo.after (hostOps0 (F := Ideal)) W (Proc.devRef .tc main_arg0) = W (Proc.devRef .tc main_arg0)
    ∧     StableHlo.after (hostOps0 (F := Ideal)) W (Proc.devRef .tc main_arg5) = W (Proc.devRef .tc main_arg5)
    ∧     StableHlo.after (hostOps0 (F := Ideal)) W (Proc.devRef .tc main_arg6) = W (Proc.devRef .tc main_arg6)
    ∧     StableHlo.after (hostOps0 (F := Ideal)) W (Proc.devRef .tc main_arg7) = W (Proc.devRef .tc main_arg7)
    ∧     StableHlo.after (hostOps0 (F := Ideal)) W (Proc.devRef .tc main_arg8) = W (Proc.devRef .tc main_arg8)
    ∧     StableHlo.after (hostOps0 (F := Ideal)) W (Proc.devRef .tc main_arg9) = W (Proc.devRef .tc main_arg9)
    ∧     StableHlo.after (hostOps0 (F := Ideal)) W (Proc.devRef .tc main_arg10) = W (Proc.devRef .tc main_arg10)
    ∧     StableHlo.after (hostOps0 (F := Ideal)) W (Proc.devRef .tc main_arg11) = W (Proc.devRef .tc main_arg11)
    ∧     StableHlo.after (hostOps0 (F := Ideal)) W (Proc.devRef .tc main_arg12) = W (Proc.devRef .tc main_arg12) := by
  refine ⟨?_, ?_, ?_, ?_, ?_, ?_, ?_, ?_, ?_⟩ <;> after_results_simp

/-! ## Before the second layer -/

theorem mean1 : StableHlo.after (hostOps1 (F := Ideal)) W (Proc.devRef .tc main_v45)
    = meanOf (W (Proc.devRef .tc main_v1)) (W (Proc.devRef .tc main_v3)) (W (Proc.devRef .tc main_v26)) := by
  after_results_simp <;> rfl
theorem matA1 : StableHlo.after (hostOps1 (F := Ideal)) W (Proc.devRef .tc main_v46)
    = transpose S128x128 [1, 0] (W (Proc.devRef .tc main_arg5)) transposes_S128x128_S128x128_1_0 := by
  after_results_simp <;> rfl
theorem bias1 : StableHlo.after (hostOps1 (F := Ideal)) W (Proc.devRef .tc main_v48)
    = shapeCast S1x128 (W (Proc.devRef .tc main_arg6)) shapeCasts_S128_S1x128 := by
  after_results_simp <;> rfl
theorem matC1 : StableHlo.after (hostOps1 (F := Ideal)) W (Proc.devRef .tc main_v47)
    = transpose S128x128 [1, 0] (W (Proc.devRef .tc main_arg7)) transposes_S128x128_S128x128_1_0 := by
  after_results_simp <;> rfl
/-- The first layer's result, the edge words and the arguments read later are not written. -/
theorem keep1 :
    StableHlo.after (hostOps1 (F := Ideal)) W (Proc.devRef .tc main_v26) = W (Proc.devRef .tc main_v26)
    ∧     StableHlo.after (hostOps1 (F := Ideal)) W (Proc.devRef .tc main_v1) = W (Proc.devRef .tc main_v1)
    ∧     StableHlo.after (hostOps1 (F := Ideal)) W (Proc.devRef .tc main_v3) = W (Proc.devRef .tc main_v3)
    ∧     StableHlo.after (hostOps1 (F := Ideal)) W (Proc.devRef .tc main_arg8) = W (Proc.devRef .tc main_arg8)
    ∧     StableHlo.after (hostOps1 (F := Ideal)) W (Proc.devRef .tc main_arg9) = W (Proc.devRef .tc main_arg9)
    ∧     StableHlo.after (hostOps1 (F := Ideal)) W (Proc.devRef .tc main_arg10) = W (Proc.devRef .tc main_arg10)
    ∧     StableHlo.after (hostOps1 (F := Ideal)) W (Proc.devRef .tc main_arg11) = W (Proc.devRef .tc main_arg11)
    ∧     StableHlo.after (hostOps1 (F := Ideal)) W (Proc.devRef .tc main_arg12) = W (Proc.devRef .tc main_arg12) := by
  refine ⟨?_, ?_, ?_, ?_, ?_, ?_, ?_, ?_⟩ <;> after_results_simp

/-! ## Before the third layer -/

theorem mean2 : StableHlo.after (hostOps2 (F := Ideal)) W (Proc.devRef .tc main_v68)
    = meanOf (W (Proc.devRef .tc main_v1)) (W (Proc.devRef .tc main_v3)) (W (Proc.devRef .tc main_v49)) := by
  after_results_simp <;> rfl
theorem matA2 : StableHlo.after (hostOps2 (F := Ideal)) W (Proc.devRef .tc main_v69)
    = transpose S128x128 [1, 0] (W (Proc.devRef .tc main_arg8)) transposes_S128x128_S128x128_1_0 := by
  after_results_simp <;> rfl
theorem bias2 : StableHlo.after (hostOps2 (F := Ideal)) W (Proc.devRef .tc main_v71)
    = shapeCast S1x128 (W (Proc.devRef .tc main_arg9)) shapeCasts_S128_S1x128 := by
  after_results_simp <;> rfl
theorem matC2 : StableHlo.after (hostOps2 (F := Ideal)) W (Proc.devRef .tc main_v70)
    = transpose S128x128 [1, 0] (W (Proc.devRef .tc main_arg10)) transposes_S128x128_S128x128_1_0 := by
  after_results_simp <;> rfl
/-- The second layer's result and the head's arguments are not written. -/
theorem keep2 :
    StableHlo.after (hostOps2 (F := Ideal)) W (Proc.devRef .tc main_v49) = W (Proc.devRef .tc main_v49)
    ∧     StableHlo.after (hostOps2 (F := Ideal)) W (Proc.devRef .tc main_arg11) = W (Proc.devRef .tc main_arg11)
    ∧     StableHlo.after (hostOps2 (F := Ideal)) W (Proc.devRef .tc main_arg12) = W (Proc.devRef .tc main_arg12) := by
  refine ⟨?_, ?_, ?_⟩ <;> after_results_simp

/-! ## Before the head -/

theorem col3 : StableHlo.after (hostOps3 (F := Ideal)) W (Proc.devRef .tc main_v73)
    = transpose S128x1 [1, 0] (W (Proc.devRef .tc main_arg11)) transposes_S1x128_S128x1_1_0 := by
  after_results_simp <;> rfl
theorem bias3 : StableHlo.after (hostOps3 (F := Ideal)) W (Proc.devRef .tc main_v74)
    = shapeCast S1x1 (W (Proc.devRef .tc main_arg12)) shapeCasts_S1_S1x1 := by
  after_results_simp <;> rfl
/-- The third layer's result is not written. -/
theorem keep3 : StableHlo.after (hostOps3 (F := Ideal)) W (Proc.devRef .tc main_v72) = W (Proc.devRef .tc main_v72) := by
  after_results_simp

end Cert.KernelIdeal.Stretch

end
-- ==== Proof.Spec.lean ====
/-
  Mean-aggregation graph layers, as functions on the extended reals.

  A node table h of 50000 rows and 128 features is averaged over each node's incoming edges to a table mean of the
  same shape; one layer then sends row p to relu(mean(p,·)·A + h(p,·)·C + b), with A and C two 128×128 matrices and b
  a row of 128 entries:

      combine mean h A b C (p, q) = max ((Σ_l mean(p,l)·A(l,q) + Σ_l h(p,l)·C(l,q)) + b(0,q)) 0.

  A layer over an averaging operator avg is step avg h A b C = combine (avg h) h A b C; the net is three such layers.
  The programs are handed each matrix untransposed and each bias as a vector: tr M is the transposed matrix and asRow v
  the vector as a table of one row.
  After the layers a head maps each row to one number:

      head h w β (p, 0) = Σ_l h(p,l)·w(l,0) + β(0,0).

  Addition on the extended reals is commutative and associative (⊥ absorbs), so the order in which the three summands
  of a layer are added does not matter: combine_eq_bias_first.
-/
import Idealize.ShloMosaic.PureOps.Ideal
import Idealize.ShloMosaic.Lib.ValueIdx

noncomputable section

open scoped BigOperators

namespace Cert.Sage

open Idealize.ShloMosaic Idealize.ShloMosaic.ValueIdx

/-- The node table's shape, a weight matrix's, a bias row's, the head's column, the head's bias and the result's. -/
abbrev SN : Shape := ⟨2, ![50000, 128]⟩
abbrev SW : Shape := ⟨2, ![128, 128]⟩
abbrev SB : Shape := ⟨2, ![1, 128]⟩
abbrev SC : Shape := ⟨2, ![128, 1]⟩
abbrev S11 : Shape := ⟨2, ![1, 1]⟩
abbrev SO : Shape := ⟨2, ![50000, 1]⟩

/-- Row p of the table X against column q of the matrix M. -/
def rowCol {a k n : ℕ} (X : (⟨2, ![a, k]⟩ : Shape).Idx → EReal) (M : (⟨2, ![k, n]⟩ : Shape).Idx → EReal) (p : Fin a) (q : Fin n) : EReal :=
  ∑ l : Fin k, X (ix2 p l) * M (ix2 l q)

/-- One layer at a row p and a feature q. -/
def combineAt (mean h : SN.Idx → EReal) (A : SW.Idx → EReal) (b : SB.Idx → EReal) (C : SW.Idx → EReal)
    (p : Fin 50000) (q : Fin 128) : EReal :=
  max ((rowCol mean A p q + rowCol h C p q) + b (ix2 0 q)) 0

/-- One layer, as a table. -/
def combine (mean h : SN.Idx → EReal) (A : SW.Idx → EReal) (b : SB.Idx → EReal) (C : SW.Idx → EReal) : SN.Idx → EReal :=
  fun j => combineAt mean h A b C ⟨(j 0).val, idx2_lt0 j⟩ ⟨(j 1).val, idx2_lt1 j⟩

theorem combine_apply (mean h : SN.Idx → EReal) (A : SW.Idx → EReal) (b : SB.Idx → EReal) (C : SW.Idx → EReal)
    (p : Fin 50000) (q : Fin 128) : combine mean h A b C (ix2 p q) = combineAt mean h A b C p q := rfl

/-- The bias may be added before the second product: the three summands of a layer commute. -/
theorem combineAt_eq_bias_first (mean h : SN.Idx → EReal) (A : SW.Idx → EReal) (b : SB.Idx → EReal) (C : SW.Idx → EReal)
    (p : Fin 50000) (q : Fin 128) :
    max ((rowCol mean A p q + b (ix2 0 q)) + rowCol h C p q) 0 = combineAt mean h A b C p q := by
  unfold combineAt
  rw [add_right_comm]

/-- The head at a row p. -/
def headAt (h : SN.Idx → EReal) (w : SC.Idx → EReal) (β : S11.Idx → EReal) (p : Fin 50000) : EReal :=
  rowCol h w p 0 + β (ix2 0 0)

/-- The head, as a column. -/
def head (h : SN.Idx → EReal) (w : SC.Idx → EReal) (β : S11.Idx → EReal) : SO.Idx → EReal :=
  fun j => headAt h w β ⟨(j 0).val, idx2_lt0 j⟩

theorem head_apply (h : SN.Idx → EReal) (w : SC.Idx → EReal) (β : S11.Idx → EReal) (p : Fin 50000) (z : Fin 1) :
    head h w β (ix2 p z) = headAt h w β p := rfl

/-- A matrix transposed: entry (i, k) of the result is entry (k, i) of the matrix. -/
def tr {a b : ℕ} (M : (⟨2, ![a, b]⟩ : Shape).Idx → EReal) : (⟨2, ![b, a]⟩ : Shape).Idx → EReal :=
  fun j => M (ix2 ⟨(j 1).val, idx2_lt1 j⟩ ⟨(j 0).val, idx2_lt0 j⟩)

theorem tr_apply {a b : ℕ} (M : (⟨2, ![a, b]⟩ : Shape).Idx → EReal) (i : Fin b) (k : Fin a) :
    tr M (ix2 i k) = M (ix2 k i) := rfl

/-- A vector of n entries as a table of one row. -/
def asRow {n : ℕ} (v : (⟨1, ![n]⟩ : Shape).Idx → EReal) : (⟨2, ![1, n]⟩ : Shape).Idx → EReal :=
  fun j => v (ix1 ⟨(j 1).val, idx2_lt1 j⟩)

theorem asRow_apply {n : ℕ} (v : (⟨1, ![n]⟩ : Shape).Idx → EReal) (u : Fin 1) (q : Fin n) :
    asRow v (ix2 u q) = v (ix1 q) := rfl

/-- One layer over an averaging operator: the table and its average go through combine. -/
def step (avg : (SN.Idx → EReal) → (SN.Idx → EReal)) (h : SN.Idx → EReal) (A : SW.Idx → EReal) (b : SB.Idx → EReal)
    (C : SW.Idx → EReal) : SN.Idx → EReal :=
  combine (avg h) h A b C

/-- Three layers over an averaging operator, then the head. -/
def net (avg : (SN.Idx → EReal) → (SN.Idx → EReal)) (x : SN.Idx → EReal)
    (A0 : SW.Idx → EReal) (b0 : SB.Idx → EReal) (C0 : SW.Idx → EReal)
    (A1 : SW.Idx → EReal) (b1 : SB.Idx → EReal) (C1 : SW.Idx → EReal)
    (A2 : SW.Idx → EReal) (b2 : SB.Idx → EReal) (C2 : SW.Idx → EReal)
    (w : SC.Idx → EReal) (β : S11.Idx → EReal) : SO.Idx → EReal :=
  head (step avg (step avg (step avg x A0 b0 C0) A1 b1 C1) A2 b2 C2) w β

end Cert.Sage

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KernelPayload.lean ====
/-
  What one grid step of each kernel stores, read at an entry.

  A layer kernel holds a block of 5000 rows of the averaged table and of the node table, the two 128×128 matrices and
  the bias row, and stores relu of (block of means)·A + (block of nodes)·C + bias. At the exact values the narrowing
  of the operands before the products is the identity, a product into a zero accumulator is the plain sum over the
  contracted coordinate, the bias row repeated down the rows reads its entry of the same column, and relu is the
  maximum with zero. The head kernel stores (block of nodes)·w + β.
-/
import proofs.«123665_j2534030704731_1_alg».proof.Proof.Gen.KernelIdeal.Skeleton
import proofs.«123665_j2534030704731_1_alg».proof.Proof.Spec
import proofs.«123665_j2534030704731_1_alg».proof.Proof.LibDenseLayer
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen Cert.Sage

/-- The zero word is the real zero. -/
theorem zero_word : (Scalar.ofBits (F := Ideal) .f32 0x00000000#32 : EReal) = 0 := Ideal.ofBits_zero_f32

/-- A block of 5000 rows against a 128×128 matrix, into a zero accumulator, at (p, q). -/
theorem rows_times_square (X : FVec Ideal S5000x128 .bf16) (M : FVec Ideal S128x128 .bf16) (p : Fin 5000) (q : Fin 128) :
    matmul dot_S5000x128_S128x128_S5000x128_1_0_0_1_n_n none X M (constant S5000x128 .f32 0x00000000#32) (ix2 p q)
      = rowCol X M p q :=
  DenseLayer.matmul_rows_apply _ none X M p q

/-- The first layer's store at (p, q). -/
theorem pay0_apply (x0 x1 : Vec Ideal S5000x128 .f32) (x2 x4 : Vec Ideal S128x128 .f32) (x3 : Vec Ideal S1x128 .f32)
    (p : Fin 5000) (q : Fin 128) :
    k0_pay1 x0 x1 x2 x4 x3 (ix2 p q) = max ((rowCol x0 x2 p q + rowCol x1 x4 p q) + x3 (ix2 0 q)) 0 := by
  unfold k0_pay1
  show max ((matmul _ none _ _ _ (ix2 p q) + matmul _ none _ _ _ (ix2 p q)) + broadcastTo S5000x128 _ _ (ix2 p q)) (Scalar.ofBits (F := Ideal) .f32 0x00000000#32) = _
  refine congrArg₂ max (congrArg₂ (· + ·) (congrArg₂ (· + ·) ?_ ?_) ?_) zero_word
  · refine (rows_times_square _ _ p q).trans ?_
    rw [shapeCast_self, shapeCast_self]; rfl
  · refine (rows_times_square _ _ p q).trans ?_
    rw [shapeCast_self]; rfl
  · refine (broadcastTo_1b_ab_apply _ _ p q).trans ?_
    rw [shapeCast_self]

/-- The second layer's store at (p, q). -/
theorem pay1_apply (x0 x1 : Vec Ideal S5000x128 .f32) (x2 x4 : Vec Ideal S128x128 .f32) (x3 : Vec Ideal S1x128 .f32)
    (p : Fin 5000) (q : Fin 128) :
    k1_pay1 x0 x1 x2 x4 x3 (ix2 p q) = max ((rowCol x0 x2 p q + rowCol x1 x4 p q) + x3 (ix2 0 q)) 0 := by
  unfold k1_pay1
  show max ((matmul _ none _ _ _ (ix2 p q) + matmul _ none _ _ _ (ix2 p q)) + broadcastTo S5000x128 _ _ (ix2 p q)) (Scalar.ofBits (F := Ideal) .f32 0x00000000#32) = _
  refine congrArg₂ max (congrArg₂ (· + ·) (congrArg₂ (· + ·) ?_ ?_) ?_) zero_word
  · refine (rows_times_square _ _ p q).trans ?_
    rw [shapeCast_self, shapeCast_self]; rfl
  · refine (rows_times_square _ _ p q).trans ?_
    rw [shapeCast_self, shapeCast_self]; rfl
  · refine (broadcastTo_1b_ab_apply _ _ p q).trans ?_
    rw [shapeCast_self]

/-- The third layer's store at (p, q). -/
theorem pay2_apply (x0 x1 : Vec Ideal S5000x128 .f32) (x2 x4 : Vec Ideal S128x128 .f32) (x3 : Vec Ideal S1x128 .f32)
    (p : Fin 5000) (q : Fin 128) :
    k2_pay1 x0 x1 x2 x4 x3 (ix2 p q) = max ((rowCol x0 x2 p q + rowCol x1 x4 p q) + x3 (ix2 0 q)) 0 := by
  unfold k2_pay1
  show max ((matmul _ none _ _ _ (ix2 p q) + matmul _ none _ _ _ (ix2 p q)) + broadcastTo S5000x128 _ _ (ix2 p q)) (Scalar.ofBits (F := Ideal) .f32 0x00000000#32) = _
  refine congrArg₂ max (congrArg₂ (· + ·) (congrArg₂ (· + ·) ?_ ?_) ?_) zero_word
  · refine (rows_times_square _ _ p q).trans ?_
    rw [shapeCast_self, shapeCast_self]; rfl
  · refine (rows_times_square _ _ p q).trans ?_
    rw [shapeCast_self, shapeCast_self]; rfl
  · refine (broadcastTo_1b_ab_apply _ _ p q).trans ?_
    rw [shapeCast_self]

/-- A block of 5000 rows against the head's column, into a zero accumulator, at (p, z). -/
theorem rows_times_column (X : FVec Ideal S5000x128 .bf16) (M : FVec Ideal S128x1 .bf16) (p : Fin 5000) (z : Fin 1) :
    matmul dot_S5000x128_S128x1_S5000x1_1_0_0_1_n_n none X M (constant S5000x1 .f32 0x00000000#32) (ix2 p z)
      = rowCol X M p z :=
  DenseLayer.matmul_rows_apply _ none X M p z

/-- The head's store at (p, z). -/
theorem pay3_apply (x0 : Vec Ideal S5000x128 .f32) (w : Vec Ideal S128x1 .f32) (β : Vec Ideal S1x1 .f32)
    (p : Fin 5000) (z : Fin 1) :
    k3_pay1 x0 w β (ix2 p z) = rowCol x0 w p z + β (ix2 0 z) := by
  unfold k3_pay1
  show matmul _ none _ _ _ (ix2 p z) + broadcastTo S5000x1 _ _ (ix2 p z) = _
  refine congrArg₂ (· + ·) ?_ ?_
  · refine (rows_times_column _ _ p z).trans ?_
    rw [shapeCast_self, shapeCast_self]; rfl
  · refine (broadcastTo_1b_ab_apply _ _ p z).trans ?_
    rw [shapeCast_self]

end Cert.KernelIdeal.Payload

end
-- ==== Proof.Region0.lean ====
/-
  The first layer's region, as one function of the arrays it is entered with.

  The grid has ten points; point t holds rows 5000·t … 5000·t + 4999 of the averaged table and of the node table,
  the two matrices and the bias row whole, and writes back rows 5000·t … 5000·t + 4999 of the result. What it writes
  at row p of its block and feature q is the layer's value at row 5000·t + p: a row of a product depends on that row of
  the left operand only. The ten blocks tile the result array, so after the region the array is the layer of the entry
  arrays.
-/
import proofs.«123665_j2534030704731_1_alg».proof.Proof.Gen.KernelIdeal.Frame
import proofs.«123665_j2534030704731_1_alg».proof.Proof.KernelPayload
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.Sage

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the whole-array windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 5000·t + p of the array. -/
def rowOf (t : Fin cfg0.N) (p : Fin 5000) : Fin 50000 :=
  ⟨5000 * t.val + p.val, by have h : t.val < 10 := lt_of_lt_of_eq t.isLt N_0; have := p.isLt; omega⟩

/-- The array the region leaves: the layer of the arrays it is entered with. -/
abbrev G (c : Dev nD) : S50000x128.Idx → EReal :=
  combine (V c main_v22) (V c main_arg0) (V c main_v23) (V c main_v25) (V c main_v24)

/-- The averaged table's block at point t, at (p, l). -/
theorem mean_blk (c : Dev nD) (t : Fin cfg0.N) (p : Fin 5000) (l : Fin 128) :
    (iblk0 V c 0 t : Vec Ideal S5000x128 .f32) (ix2 p l) = (V c main_v22 : S50000x128.Idx → EReal) (ix2 (rowOf t p) l) := by
  obtain ⟨e0, e1, -⟩ := idx_facts t
  unfold iblk0
  rw [View.read_apply]
  show V c main_v22 _ = V c main_v22 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * l.val = l.val; rw [e1]; omega

/-- The node table's block at point t, at (p, l). -/
theorem node_blk (c : Dev nD) (t : Fin cfg0.N) (p : Fin 5000) (l : Fin 128) :
    (iblk0 V c 1 t : Vec Ideal S5000x128 .f32) (ix2 p l) = (V c main_arg0 : S50000x128.Idx → EReal) (ix2 (rowOf t p) l) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * p.val = 5000 * t.val + p.val; rw [e0]; omega
  | ⟨1, _⟩ => show win0_1.index t 1 * 128 + 1 * l.val = l.val; rw [e1]; omega

/-- The first matrix is held whole at every point. -/
theorem matA_blk (c : Dev nD) (t : Fin cfg0.N) (l q : Fin 128) :
    (iblk0 V c 2 t : Vec Ideal S128x128 .f32) (ix2 l q) = (V c main_v23 : S128x128.Idx → EReal) (ix2 l q) := by
  obtain ⟨-, -, -, -, e0, e1, -⟩ := idx_facts t
  unfold iblk0
  rw [View.read_apply]
  show V c main_v23 _ = V c main_v23 _
  congr 1
  funext a
  apply Fin.ext
  match a with
  | ⟨0, _⟩ => show win0_2.index t 0 * 128 + 1 * l.val = l.val; rw [e0]; omega
  | ⟨1, _⟩ => show win0_2.index t 1 * 128 + 1 * q.val = q.val; rw [e1]; omega

/-- The bias row is held whole at every point. -/
theorem bias_blk (c : Dev nD) (t : Fin cfg0.N) (u : Fin 1) (q : Fin 128) :
    (iblk0 V c 3 t : Vec Ideal S1x128 .f32) (ix2 u q) = (V c main_v25 : S1x128.Idx → EReal) (ix2 u q) := by
  obtain ⟨-, -, -, -, -, -, e0, e1, -⟩ := idx_facts t
  unfold iblk0
  rw [View.read_apply]
  show V c main_v25 _ = V c main_v25 _
  congr 1
  funext a
  apply Fin.ext
  match a with
  | ⟨0, _⟩ => show win0_3.index t 0 * 1 + 1 * u.val = u.val; rw [e0]; omega
  | ⟨1, _⟩ => show win0_3.index t 1 * 128 + 1 * q.val = q.val; rw [e1]; omega

/-- The second matrix is held whole at every point. -/
theorem matC_blk (c : Dev nD) (t : Fin cfg0.N) (l q : Fin 128) :
    (iblk0 V c 4 t : Vec Ideal S128x128 .f32) (ix2 l q) = (V c main_v24 : S128x128.Idx → EReal) (ix2 l q) := by
  obtain ⟨-, -, -, -, -, -, -, -, e0, e1, -⟩ := idx_facts t
  unfold iblk0
  rw [View.read_apply]
  show V c main_v24 _ = V c main_v24 _
  congr 1
  funext a
  apply Fin.ext
  match a with
  | ⟨0, _⟩ => show win0_4.index t 0 * 128 + 1 * l.val = l.val; rw [e0]; omega
  | ⟨1, _⟩ => show win0_4.index t 1 * 128 + 1 * q.val = q.val; rw [e1]; omega

/-- Entry (p, q) of the result's block at point t is entry (5000·t + p, q) of the result array. -/
theorem out_emb (t : Fin cfg0.N) (p : Fin 5000) (q : Fin 128) :
    ((cfg0.win 5).blk t).view.emb (ix2 p q) = (ix2 (rowOf t p) q : S50000x128.Idx) := by
  obtain ⟨-, -, -, -, -, -, -, -, -, -, e0, e1⟩ := idx_facts t
  funext a
  apply Fin.ext
  match a with
  | ⟨0, _⟩ => show win0_5.index t 0 * 5000 + 1 * p.val = 5000 * t.val + p.val; rw [e0]; omega
  | ⟨1, _⟩ => show win0_5.index t 1 * 128 + 1 * q.val = q.val; rw [e1]; omega

/-- What point t writes back is block t of the layer of the entry arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  have key : ∀ (p : Fin 5000) (q : Fin 128),
      k0_pay1 (iblk0 V c 0 t) (iblk0 V c 1 t) (iblk0 V c 2 t) (iblk0 V c 4 t) (iblk0 V c 3 t) (ix2 p q)
        = G V c (((cfg0.win 5).blk t).view.emb (ix2 p q)) := by
    intro p q
    refine (pay0_apply _ _ _ _ _ p q).trans ?_
    rw [out_emb t p q]
    show _ = combineAt _ _ _ _ _ (rowOf t p) q
    unfold combineAt rowCol
    simp only [mean_blk V c t, node_blk V c t, matA_blk V c t, matC_blk V c t, bias_blk V c t]
  funext j
  rw [eq_ix2 j]
  exact key (j 0) (j 1)

/-- An index of the result array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The result array after the region: the layer of the entry arrays (row r is written by point r / 5000). -/
theorem final (c : Dev nD) : (dat0 V c).arrAt 5 cfg0.N = G V c :=
  (dat0 V c).arrAt_eq_of_cover 5 (G V c) (fun t _ => flushed_eq V c t) fun i => by
    have hi0 : (i 0).val < 50000 := idx2_lt0 i
    have hi1 : (i 1).val < 128 := idx2_lt1 i
    have ht : (i 0).val / 5000 < cfg0.N := lt_of_lt_of_eq (by omega : (i 0).val / 5000 < 10) N_0.symm
    obtain ⟨-, -, -, -, -, -, -, -, -, -, e0, e1⟩ := idx_facts ⟨(i 0).val / 5000, ht⟩
    refine ⟨⟨(i 0).val / 5000, ht⟩, flush0_5 _, ?_⟩
    rw [mem_blk]
    intro a
    match a with
    | ⟨0, _⟩ =>
      show win0_5.index ⟨(i 0).val / 5000, ht⟩ 0 * 5000 ≤ (i 0).val ∧ (i 0).val < win0_5.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win0_5.index ⟨(i 0).val / 5000, ht⟩ 1 * 128 ≤ (i 1).val ∧ (i 1).val < win0_5.index ⟨(i 0).val / 5000, ht⟩ 1 * 128 + 128
      rw [e1]; omega

end Cert.KernelIdeal.Region0

end
-- ==== Proof.Region1.lean ====
/-
  The second layer's region, as one function of the arrays it is entered with.

  The grid has ten points; point t holds rows 5000·t … 5000·t + 4999 of the averaged table and of the node table,
  the two matrices and the bias row whole, and writes back rows 5000·t … 5000·t + 4999 of the result. What it writes
  at row p of its block and feature q is the layer's value at row 5000·t + p: a row of a product depends on that row of
  the left operand only. The ten blocks tile the result array, so after the region the array is the layer of the entry
  arrays.
-/
import proofs.«123665_j2534030704731_1_alg».proof.Proof.Gen.KernelIdeal.Frame
import proofs.«123665_j2534030704731_1_alg».proof.Proof.KernelPayload
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.Sage

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the whole-array windows at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 5000·t + p of the array. -/
def rowOf (t : Fin cfg1.N) (p : Fin 5000) : Fin 50000 :=
  ⟨5000 * t.val + p.val, by have h : t.val < 10 := lt_of_lt_of_eq t.isLt N_1; have := p.isLt; omega⟩

/-- The array the region leaves: the layer of the arrays it is entered with. -/
abbrev G (c : Dev nD) : S50000x128.Idx → EReal :=
  combine (V c main_v45) (V c main_v26) (V c main_v46) (V c main_v48) (V c main_v47)

/-- The averaged table's block at point t, at (p, l). -/
theorem mean_blk (c : Dev nD) (t : Fin cfg1.N) (p : Fin 5000) (l : Fin 128) :
    (iblk1 V c 0 t : Vec Ideal S5000x128 .f32) (ix2 p l) = (V c main_v45 : S50000x128.Idx → EReal) (ix2 (rowOf t p) l) := by
  obtain ⟨e0, e1, -⟩ := idx_facts t
  unfold iblk1
  rw [View.read_apply]
  show V c main_v45 _ = V c main_v45 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * l.val = l.val; rw [e1]; omega

/-- The node table's block at point t, at (p, l). -/
theorem node_blk (c : Dev nD) (t : Fin cfg1.N) (p : Fin 5000) (l : Fin 128) :
    (iblk1 V c 1 t : Vec Ideal S5000x128 .f32) (ix2 p l) = (V c main_v26 : S50000x128.Idx → EReal) (ix2 (rowOf t p) l) := by
  obtain ⟨-, -, e0, e1, -⟩ := idx_facts t
  unfold iblk1
  rw [View.read_apply]
  show V c main_v26 _ = V c main_v26 _
  congr 1
  funext a
  apply Fin.ext
  match a with
  | ⟨0, _⟩ => show win1_1.index t 0 * 5000 + 1 * p.val = 5000 * t.val + p.val; rw [e0]; omega
  | ⟨1, _⟩ => show win1_1.index t 1 * 128 + 1 * l.val = l.val; rw [e1]; omega

/-- The first matrix is held whole at every point. -/
theorem matA_blk (c : Dev nD) (t : Fin cfg1.N) (l q : Fin 128) :
    (iblk1 V c 2 t : Vec Ideal S128x128 .f32) (ix2 l q) = (V c main_v46 : S128x128.Idx → EReal) (ix2 l q) := by
  obtain ⟨-, -, -, -, e0, e1, -⟩ := idx_facts t
  unfold iblk1
  rw [View.read_apply]
  show V c main_v46 _ = V c main_v46 _
  congr 1
  funext a
  apply Fin.ext
  match a with
  | ⟨0, _⟩ => show win1_2.index t 0 * 128 + 1 * l.val = l.val; rw [e0]; omega
  | ⟨1, _⟩ => show win1_2.index t 1 * 128 + 1 * q.val = q.val; rw [e1]; omega

/-- The bias row is held whole at every point. -/
theorem bias_blk (c : Dev nD) (t : Fin cfg1.N) (u : Fin 1) (q : Fin 128) :
    (iblk1 V c 3 t : Vec Ideal S1x128 .f32) (ix2 u q) = (V c main_v48 : S1x128.Idx → EReal) (ix2 u q) := by
  obtain ⟨-, -, -, -, -, -, e0, e1, -⟩ := idx_facts t
  unfold iblk1
  rw [View.read_apply]
  show V c main_v48 _ = V c main_v48 _
  congr 1
  funext a
  apply Fin.ext
  match a with
  | ⟨0, _⟩ => show win1_3.index t 0 * 1 + 1 * u.val = u.val; rw [e0]; omega
  | ⟨1, _⟩ => show win1_3.index t 1 * 128 + 1 * q.val = q.val; rw [e1]; omega

/-- The second matrix is held whole at every point. -/
theorem matC_blk (c : Dev nD) (t : Fin cfg1.N) (l q : Fin 128) :
    (iblk1 V c 4 t : Vec Ideal S128x128 .f32) (ix2 l q) = (V c main_v47 : S128x128.Idx → EReal) (ix2 l q) := by
  obtain ⟨-, -, -, -, -, -, -, -, e0, e1, -⟩ := idx_facts t
  unfold iblk1
  rw [View.read_apply]
  show V c main_v47 _ = V c main_v47 _
  congr 1
  funext a
  apply Fin.ext
  match a with
  | ⟨0, _⟩ => show win1_4.index t 0 * 128 + 1 * l.val = l.val; rw [e0]; omega
  | ⟨1, _⟩ => show win1_4.index t 1 * 128 + 1 * q.val = q.val; rw [e1]; omega

/-- Entry (p, q) of the result's block at point t is entry (5000·t + p, q) of the result array. -/
theorem out_emb (t : Fin cfg1.N) (p : Fin 5000) (q : Fin 128) :
    ((cfg1.win 5).blk t).view.emb (ix2 p q) = (ix2 (rowOf t p) q : S50000x128.Idx) := by
  obtain ⟨-, -, -, -, -, -, -, -, -, -, e0, e1⟩ := idx_facts t
  funext a
  apply Fin.ext
  match a with
  | ⟨0, _⟩ => show win1_5.index t 0 * 5000 + 1 * p.val = 5000 * t.val + p.val; rw [e0]; omega
  | ⟨1, _⟩ => show win1_5.index t 1 * 128 + 1 * q.val = q.val; rw [e1]; omega

/-- What point t writes back is block t of the layer of the entry arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  have key : ∀ (p : Fin 5000) (q : Fin 128),
      k1_pay1 (iblk1 V c 0 t) (iblk1 V c 1 t) (iblk1 V c 2 t) (iblk1 V c 4 t) (iblk1 V c 3 t) (ix2 p q)
        = G V c (((cfg1.win 5).blk t).view.emb (ix2 p q)) := by
    intro p q
    refine (pay1_apply _ _ _ _ _ p q).trans ?_
    rw [out_emb t p q]
    show _ = combineAt _ _ _ _ _ (rowOf t p) q
    unfold combineAt rowCol
    simp only [mean_blk V c t, node_blk V c t, matA_blk V c t, matC_blk V c t, bias_blk V c t]
  funext j
  rw [eq_ix2 j]
  exact key (j 0) (j 1)

/-- An index of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- The result array after the region: the layer of the entry arrays (row r is written by point r / 5000). -/
theorem final (c : Dev nD) : (dat1 V c).arrAt 5 cfg1.N = G V c :=
  (dat1 V c).arrAt_eq_of_cover 5 (G V c) (fun t _ => flushed_eq V c t) fun i => by
    have hi0 : (i 0).val < 50000 := idx2_lt0 i
    have hi1 : (i 1).val < 128 := idx2_lt1 i
    have ht : (i 0).val / 5000 < cfg1.N := lt_of_lt_of_eq (by omega : (i 0).val / 5000 < 10) N_1.symm
    obtain ⟨-, -, -, -, -, -, -, -, -, -, e0, e1⟩ := idx_facts ⟨(i 0).val / 5000, ht⟩
    refine ⟨⟨(i 0).val / 5000, ht⟩, flush1_5 _, ?_⟩
    rw [mem_blk]
    intro a
    match a with
    | ⟨0, _⟩ =>
      show win1_5.index ⟨(i 0).val / 5000, ht⟩ 0 * 5000 ≤ (i 0).val ∧ (i 0).val < win1_5.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win1_5.index ⟨(i 0).val / 5000, ht⟩ 1 * 128 ≤ (i 1).val ∧ (i 1).val < win1_5.index ⟨(i 0).val / 5000, ht⟩ 1 * 128 + 128
      rw [e1]; omega

end Cert.KernelIdeal.Region1

end
-- ==== Proof.Region2.lean ====
/-
  The third layer's region, as one function of the arrays it is entered with.

  The grid has ten points; point t holds rows 5000·t … 5000·t + 4999 of the averaged table and of the node table,
  the two matrices and the bias row whole, and writes back rows 5000·t … 5000·t + 4999 of the result. What it writes
  at row p of its block and feature q is the layer's value at row 5000·t + p: a row of a product depends on that row of
  the left operand only. The ten blocks tile the result array, so after the region the array is the layer of the entry
  arrays.
-/
import proofs.«123665_j2534030704731_1_alg».proof.Proof.Gen.KernelIdeal.Frame
import proofs.«123665_j2534030704731_1_alg».proof.Proof.KernelPayload
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.Sage

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the whole-array windows at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block is row 5000·t + p of the array. -/
def rowOf (t : Fin cfg2.N) (p : Fin 5000) : Fin 50000 :=
  ⟨5000 * t.val + p.val, by have h : t.val < 10 := lt_of_lt_of_eq t.isLt N_2; have := p.isLt; omega⟩

/-- The array the region leaves: the layer of the arrays it is entered with. -/
abbrev G (c : Dev nD) : S50000x128.Idx → EReal :=
  combine (V c main_v68) (V c main_v49) (V c main_v69) (V c main_v71) (V c main_v70)

/-- The averaged table's block at point t, at (p, l). -/
theorem mean_blk (c : Dev nD) (t : Fin cfg2.N) (p : Fin 5000) (l : Fin 128) :
    (iblk2 V c 0 t : Vec Ideal S5000x128 .f32) (ix2 p l) = (V c main_v68 : S50000x128.Idx → EReal) (ix2 (rowOf t p) l) := by
  obtain ⟨e0, e1, -⟩ := idx_facts t
  unfold iblk2
  rw [View.read_apply]
  show V c main_v68 _ = V c main_v68 _
  congr 1
  funext a
  apply Fin.ext
  match a with
  | ⟨0, _⟩ => show win2_0.index t 0 * 5000 + 1 * p.val = 5000 * t.val + p.val; rw [e0]; omega
  | ⟨1, _⟩ => show win2_0.index t 1 * 128 + 1 * l.val = l.val; rw [e1]; omega

/-- The node table's block at point t, at (p, l). -/
theorem node_blk (c : Dev nD) (t : Fin cfg2.N) (p : Fin 5000) (l : Fin 128) :
    (iblk2 V c 1 t : Vec Ideal S5000x128 .f32) (ix2 p l) = (V c main_v49 : S50000x128.Idx → EReal) (ix2 (rowOf t p) l) := by
  obtain ⟨-, -, e0, e1, -⟩ := idx_facts t
  unfold iblk2
  rw [View.read_apply]
  show V c main_v49 _ = V c main_v49 _
  congr 1
  funext a
  apply Fin.ext
  match a with
  | ⟨0, _⟩ => show win2_1.index t 0 * 5000 + 1 * p.val = 5000 * t.val + p.val; rw [e0]; omega
  | ⟨1, _⟩ => show win2_1.index t 1 * 128 + 1 * l.val = l.val; rw [e1]; omega

/-- The first matrix is held whole at every point. -/
theorem matA_blk (c : Dev nD) (t : Fin cfg2.N) (l q : Fin 128) :
    (iblk2 V c 2 t : Vec Ideal S128x128 .f32) (ix2 l q) = (V c main_v69 : S128x128.Idx → EReal) (ix2 l q) := by
  obtain ⟨-, -, -, -, e0, e1, -⟩ := idx_facts t
  unfold iblk2
  rw [View.read_apply]
  show V c main_v69 _ = V c main_v69 _
  congr 1
  funext a
  apply Fin.ext
  match a with
  | ⟨0, _⟩ => show win2_2.index t 0 * 128 + 1 * l.val = l.val; rw [e0]; omega
  | ⟨1, _⟩ => show win2_2.index t 1 * 128 + 1 * q.val = q.val; rw [e1]; omega

/-- The bias row is held whole at every point. -/
theorem bias_blk (c : Dev nD) (t : Fin cfg2.N) (u : Fin 1) (q : Fin 128) :
    (iblk2 V c 3 t : Vec Ideal S1x128 .f32) (ix2 u q) = (V c main_v71 : S1x128.Idx → EReal) (ix2 u q) := by
  obtain ⟨-, -, -, -, -, -, e0, e1, -⟩ := idx_facts t
  unfold iblk2
  rw [View.read_apply]
  show V c main_v71 _ = V c main_v71 _
  congr 1
  funext a
  apply Fin.ext
  match a with
  | ⟨0, _⟩ => show win2_3.index t 0 * 1 + 1 * u.val = u.val; rw [e0]; omega
  | ⟨1, _⟩ => show win2_3.index t 1 * 128 + 1 * q.val = q.val; rw [e1]; omega

/-- The second matrix is held whole at every point. -/
theorem matC_blk (c : Dev nD) (t : Fin cfg2.N) (l q : Fin 128) :
    (iblk2 V c 4 t : Vec Ideal S128x128 .f32) (ix2 l q) = (V c main_v70 : S128x128.Idx → EReal) (ix2 l q) := by
  obtain ⟨-, -, -, -, -, -, -, -, e0, e1, -⟩ := idx_facts t
  unfold iblk2
  rw [View.read_apply]
  show V c main_v70 _ = V c main_v70 _
  congr 1
  funext a
  apply Fin.ext
  match a with
  | ⟨0, _⟩ => show win2_4.index t 0 * 128 + 1 * l.val = l.val; rw [e0]; omega
  | ⟨1, _⟩ => show win2_4.index t 1 * 128 + 1 * q.val = q.val; rw [e1]; omega

/-- Entry (p, q) of the result's block at point t is entry (5000·t + p, q) of the result array. -/
theorem out_emb (t : Fin cfg2.N) (p : Fin 5000) (q : Fin 128) :
    ((cfg2.win 5).blk t).view.emb (ix2 p q) = (ix2 (rowOf t p) q : S50000x128.Idx) := by
  obtain ⟨-, -, -, -, -, -, -, -, -, -, e0, e1⟩ := idx_facts t
  funext a
  apply Fin.ext
  match a with
  | ⟨0, _⟩ => show win2_5.index t 0 * 5000 + 1 * p.val = 5000 * t.val + p.val; rw [e0]; omega
  | ⟨1, _⟩ => show win2_5.index t 1 * 128 + 1 * q.val = q.val; rw [e1]; omega

/-- What point t writes back is block t of the layer of the entry arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  have key : ∀ (p : Fin 5000) (q : Fin 128),
      k2_pay1 (iblk2 V c 0 t) (iblk2 V c 1 t) (iblk2 V c 2 t) (iblk2 V c 4 t) (iblk2 V c 3 t) (ix2 p q)
        = G V c (((cfg2.win 5).blk t).view.emb (ix2 p q)) := by
    intro p q
    refine (pay2_apply _ _ _ _ _ p q).trans ?_
    rw [out_emb t p q]
    show _ = combineAt _ _ _ _ _ (rowOf t p) q
    unfold combineAt rowCol
    simp only [mean_blk V c t, node_blk V c t, matA_blk V c t, matC_blk V c t, bias_blk V c t]
  funext j
  rw [eq_ix2 j]
  exact key (j 0) (j 1)

/-- An index of the result array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v72).slice (win2_5.rect t)).set ↔ _
  rw [View.set_slice_whole, Rect.mem_set_unit]
  exact Iff.rfl

/-- The result array after the region: the layer of the entry arrays (row r is written by point r / 5000). -/
theorem final (c : Dev nD) : (dat2 V c).arrAt 5 cfg2.N = G V c :=
  (dat2 V c).arrAt_eq_of_cover 5 (G V c) (fun t _ => flushed_eq V c t) fun i => by
    have hi0 : (i 0).val < 50000 := idx2_lt0 i
    have hi1 : (i 1).val < 128 := idx2_lt1 i
    have ht : (i 0).val / 5000 < cfg2.N := lt_of_lt_of_eq (by omega : (i 0).val / 5000 < 10) N_2.symm
    obtain ⟨-, -, -, -, -, -, -, -, -, -, e0, e1⟩ := idx_facts ⟨(i 0).val / 5000, ht⟩
    refine ⟨⟨(i 0).val / 5000, ht⟩, flush2_5 _, ?_⟩
    rw [mem_blk]
    intro a
    match a with
    | ⟨0, _⟩ =>
      show win2_5.index ⟨(i 0).val / 5000, ht⟩ 0 * 5000 ≤ (i 0).val ∧ (i 0).val < win2_5.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win2_5.index ⟨(i 0).val / 5000, ht⟩ 1 * 128 ≤ (i 1).val ∧ (i 1).val < win2_5.index ⟨(i 0).val / 5000, ht⟩ 1 * 128 + 128
      rw [e1]; omega

end Cert.KernelIdeal.Region2

end
-- ==== Proof.Region3.lean ====
/-
  The head's region, as one function of the arrays it is entered with.

  The grid has ten points; point t holds rows 5000·t … 5000·t + 4999 of the node table, the head's column and its
  bias whole, and writes back rows 5000·t … 5000·t + 4999 of the result column. What it writes at row p of its block is
  the head's value at row 5000·t + p. The ten blocks tile the result column, so after the region the column is the head
  of the entry arrays.
-/
import proofs.«123665_j2534030704731_1_alg».proof.Proof.Gen.KernelIdeal.Frame
import proofs.«123665_j2534030704731_1_alg».proof.Proof.KernelPayload
import Idealize.ShloMosaic.Lib.Pipeline.Value

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.Sage

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the row windows at block row t, the whole-array windows at the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's block is row 5000·t + p of the array. -/
def rowOf (t : Fin cfg3.N) (p : Fin 5000) : Fin 50000 :=
  ⟨5000 * t.val + p.val, by have h : t.val < 10 := lt_of_lt_of_eq t.isLt N_3; have := p.isLt; omega⟩

/-- The column the region leaves: the head of the arrays it is entered with. -/
abbrev G (c : Dev nD) : S50000x1.Idx → EReal :=
  head (V c main_v72) (V c main_v73) (V c main_v74)

/-- The node table's block at point t, at (p, l). -/
theorem node_blk (c : Dev nD) (t : Fin cfg3.N) (p : Fin 5000) (l : Fin 128) :
    (iblk3 V c 0 t : Vec Ideal S5000x128 .f32) (ix2 p l) = (V c main_v72 : S50000x128.Idx → EReal) (ix2 (rowOf t p) l) := by
  obtain ⟨e0, e1, -⟩ := idx_facts t
  unfold iblk3
  rw [View.read_apply]
  show V c main_v72 _ = V c main_v72 _
  congr 1
  funext a
  apply Fin.ext
  match a with
  | ⟨0, _⟩ => show win3_0.index t 0 * 5000 + 1 * p.val = 5000 * t.val + p.val; rw [e0]; omega
  | ⟨1, _⟩ => show win3_0.index t 1 * 128 + 1 * l.val = l.val; rw [e1]; omega

/-- The head's column is held whole at every point. -/
theorem col_blk (c : Dev nD) (t : Fin cfg3.N) (l : Fin 128) (z : Fin 1) :
    (iblk3 V c 1 t : Vec Ideal S128x1 .f32) (ix2 l z) = (V c main_v73 : S128x1.Idx → EReal) (ix2 l z) := by
  obtain ⟨-, -, e0, e1, -⟩ := idx_facts t
  unfold iblk3
  rw [View.read_apply]
  show V c main_v73 _ = V c main_v73 _
  congr 1
  funext a
  apply Fin.ext
  match a with
  | ⟨0, _⟩ => show win3_1.index t 0 * 128 + 1 * l.val = l.val; rw [e0]; omega
  | ⟨1, _⟩ => show win3_1.index t 1 * 1 + 1 * z.val = z.val; rw [e1]; omega

/-- The head's bias is held whole at every point. -/
theorem bias_blk (c : Dev nD) (t : Fin cfg3.N) (u z : Fin 1) :
    (iblk3 V c 2 t : Vec Ideal S1x1 .f32) (ix2 u z) = (V c main_v74 : S1x1.Idx → EReal) (ix2 u z) := by
  obtain ⟨-, -, -, -, e0, e1, -⟩ := idx_facts t
  unfold iblk3
  rw [View.read_apply]
  show V c main_v74 _ = V c main_v74 _
  congr 1
  funext a
  apply Fin.ext
  match a with
  | ⟨0, _⟩ => show win3_2.index t 0 * 1 + 1 * u.val = u.val; rw [e0]; omega
  | ⟨1, _⟩ => show win3_2.index t 1 * 1 + 1 * z.val = z.val; rw [e1]; omega

/-- Entry (p, z) of the result's block at point t is entry (5000·t + p, z) of the result column. -/
theorem out_emb (t : Fin cfg3.N) (p : Fin 5000) (z : Fin 1) :
    ((cfg3.win 3).blk t).view.emb (ix2 p z) = (ix2 (rowOf t p) z : S50000x1.Idx) := by
  obtain ⟨-, -, -, -, -, -, e0, e1⟩ := idx_facts t
  funext a
  apply Fin.ext
  match a with
  | ⟨0, _⟩ => show win3_3.index t 0 * 5000 + 1 * p.val = 5000 * t.val + p.val; rw [e0]; omega
  | ⟨1, _⟩ => show win3_3.index t 1 * 1 + 1 * z.val = z.val; rw [e1]; omega

/-- What point t writes back is block t of the head of the entry arrays. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x1) hz, View.ld_unit_zero (S := S1x1) hz]
  have key : ∀ (p : Fin 5000) (z : Fin 1),
      k3_pay1 (iblk3 V c 0 t) (iblk3 V c 1 t) (iblk3 V c 2 t) (ix2 p z)
        = G V c (((cfg3.win 3).blk t).view.emb (ix2 p z)) := by
    intro p z
    obtain rfl : z = 0 := Subsingleton.elim _ _
    refine (pay3_apply _ _ _ p 0).trans ?_
    rw [out_emb t p 0]
    show _ = headAt _ _ _ (rowOf t p)
    unfold headAt rowCol
    simp only [node_blk V c t, col_blk V c t, bias_blk V c t]
  funext j
  rw [eq_ix2 j]
  exact key (j 0) (j 1)

/-- An index of the result column is in point t's block iff each coordinate is in the block's range on its axis. -/
theorem mem_blk (t : Fin cfg3.N) (i : S50000x1.Idx) :
    i ∈ ((cfg3.win 3).blk t).view.set ↔ ∀ a : Fin 2, win3_3.index t a * S5000x1.size a ≤ (i a).val ∧ (i a).val < win3_3.index t a * S5000x1.size a + S5000x1.size a := by
  show i ∈ ((View.whole main_v75).slice (win3_3.rect t)).set ↔ _
  rw [View.set_slice_whole, Rect.mem_set_unit]
  exact Iff.rfl

/-- The result column after the region: the head of the entry arrays (row r is written by point r / 5000). -/
theorem final (c : Dev nD) : (dat3 V c).arrAt 3 cfg3.N = G V c :=
  (dat3 V c).arrAt_eq_of_cover 3 (G V c) (fun t _ => flushed_eq V c t) fun i => by
    have hi0 : (i 0).val < 50000 := idx2_lt0 i
    have hi1 : (i 1).val < 1 := idx2_lt1 i
    have ht : (i 0).val / 5000 < cfg3.N := lt_of_lt_of_eq (by omega : (i 0).val / 5000 < 10) N_3.symm
    obtain ⟨-, -, -, -, -, -, e0, e1⟩ := idx_facts ⟨(i 0).val / 5000, ht⟩
    refine ⟨⟨(i 0).val / 5000, ht⟩, flush3_3 _, ?_⟩
    rw [mem_blk]
    intro a
    match a with
    | ⟨0, _⟩ =>
      show win3_3.index ⟨(i 0).val / 5000, ht⟩ 0 * 5000 ≤ (i 0).val ∧ (i 0).val < win3_3.index ⟨(i 0).val / 5000, ht⟩ 0 * 5000 + 5000
      rw [e0]; show (i 0).val / 5000 * 5000 ≤ (i 0).val ∧ (i 0).val < (i 0).val / 5000 * 5000 + 5000; omega
    | ⟨1, _⟩ =>
      show win3_3.index ⟨(i 0).val / 5000, ht⟩ 1 * 1 ≤ (i 1).val ∧ (i 1).val < win3_3.index ⟨(i 0).val / 5000, ht⟩ 1 * 1 + 1
      rw [e1]; omega

end Cert.KernelIdeal.Region3

end
-- ==== Proof.KernelValue.lean ====
/-
  The kernel program's result array, as the net of three layers and the head.

  @main alternates host stretches and kernel regions. Walking the buffer contents from the launch memory: the first
  stretch leaves the edge words, the mean of the input table, the first layer's matrices transposed and its bias as a
  row; the first region leaves the first layer; the second stretch leaves the mean of that layer and the second
  layer's operands; and so on to the head's region, whose result column is the program's result. No stretch or region
  writes an argument array or, once made, the edge words.
-/
import proofs.«123665_j2534030704731_1_alg».proof.Proof.Gen.KernelIdeal.Frame
import proofs.«123665_j2534030704731_1_alg».proof.Proof.KernelStretch
import proofs.«123665_j2534030704731_1_alg».proof.Proof.Region0
import proofs.«123665_j2534030704731_1_alg».proof.Proof.Region1
import proofs.«123665_j2534030704731_1_alg».proof.Proof.Region2
import proofs.«123665_j2534030704731_1_alg».proof.Proof.Region3
import Idealize.ShloMosaic.Lib.ValueLayout

set_option maxRecDepth 16384

noncomputable section

namespace Cert.KernelIdeal.KValue

open Idealize.ShloMosaic Idealize.ShloMosaic.TcCoe Idealize.SL.Sem Idealize.ShloMosaic.StableHlo
open Idealize.ShloMosaic.ValueIdx
open Cert.KernelIdeal Cert.KernelIdeal.Gen Cert.KernelIdeal.Stretch Cert.Sage

variable (m : (ℓ : Loc nD τ sig) → Buf (Elt Ideal) ℓ) (ρ : Dev nD → PrngReg)

/-- The host's transposed matrix is the matrix transposed. -/
theorem transpose_eq (M : FVec Ideal S128x128 .f32) :
    transpose S128x128 [1, 0] M transposes_S128x128_S128x128_1_0 = tr M := by
  funext j
  rw [eq_ix2 j]
  exact transpose_ix2_apply M _ (j 0) (j 1)

/-- The head's row transposed is its column. -/
theorem transposeCol_eq (M : FVec Ideal S1x128 .f32) :
    transpose S128x1 [1, 0] M transposes_S1x128_S128x1_1_0 = tr M := by
  funext j
  rw [eq_ix2 j]
  exact transpose_ix2_apply M _ (j 0) (j 1)

/-- A bias vector cast to one row is the vector as one row. -/
theorem castRow_eq (v : FVec Ideal S128 .f32) : shapeCast S1x128 v shapeCasts_S128_S1x128 = asRow v := by
  funext j
  rw [eq_ix2 j]
  exact shapeCast_a_1a_apply v _ (j 0) (j 1)

/-- The head's bias cast to a 1×1 table is the vector as one row. -/
theorem castCell_eq (v : FVec Ideal S1 .f32) : shapeCast S1x1 v shapeCasts_S1_S1x1 = asRow v := by
  funext j
  rw [eq_ix2 j]
  exact shapeCast_a_1a_apply v _ (j 0) (j 1)

/-- The mean over incoming edges, at the launch's edge list. -/
abbrev avg (c : Dev nD) : FVec Ideal S50000x128 .f32 → FVec Ideal S50000x128 .f32 :=
  meanOf (srcW (m ((c.tc : Thread nD τ).loc main_arg1))) (dstW (m ((c.tc : Thread nD τ).loc main_arg1)))

/-- The three layers, at the launch's arguments. -/
abbrev L1 (c : Dev nD) : FVec Ideal S50000x128 .f32 := step (avg m c) (m ((c.tc : Thread nD τ).loc main_arg0)) (tr (m ((c.tc : Thread nD τ).loc main_arg2))) (asRow (m ((c.tc : Thread nD τ).loc main_arg3))) (tr (m ((c.tc : Thread nD τ).loc main_arg4)))
abbrev L2 (c : Dev nD) : FVec Ideal S50000x128 .f32 := step (avg m c) (L1 m c) (tr (m ((c.tc : Thread nD τ).loc main_arg5))) (asRow (m ((c.tc : Thread nD τ).loc main_arg6))) (tr (m ((c.tc : Thread nD τ).loc main_arg7)))
abbrev L3 (c : Dev nD) : FVec Ideal S50000x128 .f32 := step (avg m c) (L2 m c) (tr (m ((c.tc : Thread nD τ).loc main_arg8))) (asRow (m ((c.tc : Thread nD τ).loc main_arg9))) (tr (m ((c.tc : Thread nD τ).loc main_arg10)))

/-! ## After the first stretch -/

theorem w1_src (c : Dev nD) : W1 m ρ c (Proc.devRef .tc main_v1) = srcW (m ((c.tc : Thread nD τ).loc main_arg1)) := src0 (W0 m ρ c)
theorem w1_dst (c : Dev nD) : W1 m ρ c (Proc.devRef .tc main_v3) = dstW (m ((c.tc : Thread nD τ).loc main_arg1)) := dst0 (W0 m ρ c)
theorem w1_mean (c : Dev nD) : W1 m ρ c (Proc.devRef .tc main_v22) = avg m c (m ((c.tc : Thread nD τ).loc main_arg0)) := mean0 (W0 m ρ c)
theorem w1_A (c : Dev nD) : W1 m ρ c (Proc.devRef .tc main_v23) = (tr (m ((c.tc : Thread nD τ).loc main_arg2))) := (matA0 (W0 m ρ c)).trans (transpose_eq _)
theorem w1_b (c : Dev nD) : W1 m ρ c (Proc.devRef .tc main_v25) = (asRow (m ((c.tc : Thread nD τ).loc main_arg3))) := (bias0 (W0 m ρ c)).trans (castRow_eq _)
theorem w1_C (c : Dev nD) : W1 m ρ c (Proc.devRef .tc main_v24) = (tr (m ((c.tc : Thread nD τ).loc main_arg4))) := (matC0 (W0 m ρ c)).trans (transpose_eq _)
theorem w1_arg0 (c : Dev nD) : W1 m ρ c (Proc.devRef .tc main_arg0) = (m ((c.tc : Thread nD τ).loc main_arg0)) := (keep0 (W0 m ρ c)).1
theorem w1_arg5 (c : Dev nD) : W1 m ρ c (Proc.devRef .tc main_arg5) = (m ((c.tc : Thread nD τ).loc main_arg5)) := (keep0 (W0 m ρ c)).2.1
theorem w1_arg6 (c : Dev nD) : W1 m ρ c (Proc.devRef .tc main_arg6) = (m ((c.tc : Thread nD τ).loc main_arg6)) := (keep0 (W0 m ρ c)).2.2.1
theorem w1_arg7 (c : Dev nD) : W1 m ρ c (Proc.devRef .tc main_arg7) = (m ((c.tc : Thread nD τ).loc main_arg7)) := (keep0 (W0 m ρ c)).2.2.2.1
theorem w1_arg8 (c : Dev nD) : W1 m ρ c (Proc.devRef .tc main_arg8) = (m ((c.tc : Thread nD τ).loc main_arg8)) := (keep0 (W0 m ρ c)).2.2.2.2.1
theorem w1_arg9 (c : Dev nD) : W1 m ρ c (Proc.devRef .tc main_arg9) = (m ((c.tc : Thread nD τ).loc main_arg9)) := (keep0 (W0 m ρ c)).2.2.2.2.2.1
theorem w1_arg10 (c : Dev nD) : W1 m ρ c (Proc.devRef .tc main_arg10) = (m ((c.tc : Thread nD τ).loc main_arg10)) := (keep0 (W0 m ρ c)).2.2.2.2.2.2.1
theorem w1_arg11 (c : Dev nD) : W1 m ρ c (Proc.devRef .tc main_arg11) = (m ((c.tc : Thread nD τ).loc main_arg11)) := (keep0 (W0 m ρ c)).2.2.2.2.2.2.2.1
theorem w1_arg12 (c : Dev nD) : W1 m ρ c (Proc.devRef .tc main_arg12) = (m ((c.tc : Thread nD τ).loc main_arg12)) := (keep0 (W0 m ρ c)).2.2.2.2.2.2.2.2

/-! ## After the first layer's region -/

theorem w2_out (c : Dev nD) : W2 m ρ c (Proc.devRef .tc main_v26) = L1 m c := by
  refine (W2_arr m ρ c 5).trans ((Region0.final (V1 m ρ) c).trans ?_)
  show combine (W1 m ρ c (Proc.devRef .tc main_v22)) (W1 m ρ c (Proc.devRef .tc main_arg0)) (W1 m ρ c (Proc.devRef .tc main_v23))
    (W1 m ρ c (Proc.devRef .tc main_v25)) (W1 m ρ c (Proc.devRef .tc main_v24)) = _
  rw [w1_mean, w1_arg0, w1_A, w1_b, w1_C]
  rfl
theorem w2_src (c : Dev nD) : W2 m ρ c (Proc.devRef .tc main_v1) = srcW (m ((c.tc : Thread nD τ).loc main_arg1)) := (W2_of_ne m ρ c main_v1 (by decide)).trans (w1_src m ρ c)
theorem w2_dst (c : Dev nD) : W2 m ρ c (Proc.devRef .tc main_v3) = dstW (m ((c.tc : Thread nD τ).loc main_arg1)) := (W2_of_ne m ρ c main_v3 (by decide)).trans (w1_dst m ρ c)
theorem w2_arg5 (c : Dev nD) : W2 m ρ c (Proc.devRef .tc main_arg5) = (m ((c.tc : Thread nD τ).loc main_arg5)) := (W2_of_ne m ρ c main_arg5 (by decide)).trans (w1_arg5 m ρ c)
theorem w2_arg6 (c : Dev nD) : W2 m ρ c (Proc.devRef .tc main_arg6) = (m ((c.tc : Thread nD τ).loc main_arg6)) := (W2_of_ne m ρ c main_arg6 (by decide)).trans (w1_arg6 m ρ c)
theorem w2_arg7 (c : Dev nD) : W2 m ρ c (Proc.devRef .tc main_arg7) = (m ((c.tc : Thread nD τ).loc main_arg7)) := (W2_of_ne m ρ c main_arg7 (by decide)).trans (w1_arg7 m ρ c)
theorem w2_arg8 (c : Dev nD) : W2 m ρ c (Proc.devRef .tc main_arg8) = (m ((c.tc : Thread nD τ).loc main_arg8)) := (W2_of_ne m ρ c main_arg8 (by decide)).trans (w1_arg8 m ρ c)
theorem w2_arg9 (c : Dev nD) : W2 m ρ c (Proc.devRef .tc main_arg9) = (m ((c.tc : Thread nD τ).loc main_arg9)) := (W2_of_ne m ρ c main_arg9 (by decide)).trans (w1_arg9 m ρ c)
theorem w2_arg10 (c : Dev nD) : W2 m ρ c (Proc.devRef .tc main_arg10) = (m ((c.tc : Thread nD τ).loc main_arg10)) := (W2_of_ne m ρ c main_arg10 (by decide)).trans (w1_arg10 m ρ c)
theorem w2_arg11 (c : Dev nD) : W2 m ρ c (Proc.devRef .tc main_arg11) = (m ((c.tc : Thread nD τ).loc main_arg11)) := (W2_of_ne m ρ c main_arg11 (by decide)).trans (w1_arg11 m ρ c)
theorem w2_arg12 (c : Dev nD) : W2 m ρ c (Proc.devRef .tc main_arg12) = (m ((c.tc : Thread nD τ).loc main_arg12)) := (W2_of_ne m ρ c main_arg12 (by decide)).trans (w1_arg12 m ρ c)

/-! ## After the second stretch -/

theorem w3_mean (c : Dev nD) : W3 m ρ c (Proc.devRef .tc main_v45) = avg m c (L1 m c) :=
  (mean1 (W2 m ρ c)).trans (by rw [w2_src, w2_dst, w2_out])
theorem w3_A (c : Dev nD) : W3 m ρ c (Proc.devRef .tc main_v46) = (tr (m ((c.tc : Thread nD τ).loc main_arg5))) := (matA1 (W2 m ρ c)).trans (by rw [w2_arg5, transpose_eq])
theorem w3_b (c : Dev nD) : W3 m ρ c (Proc.devRef .tc main_v48) = (asRow (m ((c.tc : Thread nD τ).loc main_arg6))) := (bias1 (W2 m ρ c)).trans (by rw [w2_arg6, castRow_eq])
theorem w3_C (c : Dev nD) : W3 m ρ c (Proc.devRef .tc main_v47) = (tr (m ((c.tc : Thread nD τ).loc main_arg7))) := (matC1 (W2 m ρ c)).trans (by rw [w2_arg7, transpose_eq])
theorem w3_out (c : Dev nD) : W3 m ρ c (Proc.devRef .tc main_v26) = L1 m c := ((keep1 (W2 m ρ c)).1).trans (w2_out m ρ c)
theorem w3_src (c : Dev nD) : W3 m ρ c (Proc.devRef .tc main_v1) = srcW (m ((c.tc : Thread nD τ).loc main_arg1)) := ((keep1 (W2 m ρ c)).2.1).trans (w2_src m ρ c)
theorem w3_dst (c : Dev nD) : W3 m ρ c (Proc.devRef .tc main_v3) = dstW (m ((c.tc : Thread nD τ).loc main_arg1)) := ((keep1 (W2 m ρ c)).2.2.1).trans (w2_dst m ρ c)
theorem w3_arg8 (c : Dev nD) : W3 m ρ c (Proc.devRef .tc main_arg8) = (m ((c.tc : Thread nD τ).loc main_arg8)) := ((keep1 (W2 m ρ c)).2.2.2.1).trans (w2_arg8 m ρ c)
theorem w3_arg9 (c : Dev nD) : W3 m ρ c (Proc.devRef .tc main_arg9) = (m ((c.tc : Thread nD τ).loc main_arg9)) := ((keep1 (W2 m ρ c)).2.2.2.2.1).trans (w2_arg9 m ρ c)
theorem w3_arg10 (c : Dev nD) : W3 m ρ c (Proc.devRef .tc main_arg10) = (m ((c.tc : Thread nD τ).loc main_arg10)) := ((keep1 (W2 m ρ c)).2.2.2.2.2.1).trans (w2_arg10 m ρ c)
theorem w3_arg11 (c : Dev nD) : W3 m ρ c (Proc.devRef .tc main_arg11) = (m ((c.tc : Thread nD τ).loc main_arg11)) := ((keep1 (W2 m ρ c)).2.2.2.2.2.2.1).trans (w2_arg11 m ρ c)
theorem w3_arg12 (c : Dev nD) : W3 m ρ c (Proc.devRef .tc main_arg12) = (m ((c.tc : Thread nD τ).loc main_arg12)) := ((keep1 (W2 m ρ c)).2.2.2.2.2.2.2).trans (w2_arg12 m ρ c)

/-! ## After the second layer's region -/

theorem w4_out (c : Dev nD) : W4 m ρ c (Proc.devRef .tc main_v49) = L2 m c := by
  refine (W4_arr m ρ c 5).trans ((Region1.final (V3 m ρ) c).trans ?_)
  show combine (W3 m ρ c (Proc.devRef .tc main_v45)) (W3 m ρ c (Proc.devRef .tc main_v26)) (W3 m ρ c (Proc.devRef .tc main_v46))
    (W3 m ρ c (Proc.devRef .tc main_v48)) (W3 m ρ c (Proc.devRef .tc main_v47)) = _
  rw [w3_mean, w3_out, w3_A, w3_b, w3_C]
  rfl
theorem w4_src (c : Dev nD) : W4 m ρ c (Proc.devRef .tc main_v1) = srcW (m ((c.tc : Thread nD τ).loc main_arg1)) := (W4_of_ne m ρ c main_v1 (by decide)).trans (w3_src m ρ c)
theorem w4_dst (c : Dev nD) : W4 m ρ c (Proc.devRef .tc main_v3) = dstW (m ((c.tc : Thread nD τ).loc main_arg1)) := (W4_of_ne m ρ c main_v3 (by decide)).trans (w3_dst m ρ c)
theorem w4_arg8 (c : Dev nD) : W4 m ρ c (Proc.devRef .tc main_arg8) = (m ((c.tc : Thread nD τ).loc main_arg8)) := (W4_of_ne m ρ c main_arg8 (by decide)).trans (w3_arg8 m ρ c)
theorem w4_arg9 (c : Dev nD) : W4 m ρ c (Proc.devRef .tc main_arg9) = (m ((c.tc : Thread nD τ).loc main_arg9)) := (W4_of_ne m ρ c main_arg9 (by decide)).trans (w3_arg9 m ρ c)
theorem w4_arg10 (c : Dev nD) : W4 m ρ c (Proc.devRef .tc main_arg10) = (m ((c.tc : Thread nD τ).loc main_arg10)) := (W4_of_ne m ρ c main_arg10 (by decide)).trans (w3_arg10 m ρ c)
theorem w4_arg11 (c : Dev nD) : W4 m ρ c (Proc.devRef .tc main_arg11) = (m ((c.tc : Thread nD τ).loc main_arg11)) := (W4_of_ne m ρ c main_arg11 (by decide)).trans (w3_arg11 m ρ c)
theorem w4_arg12 (c : Dev nD) : W4 m ρ c (Proc.devRef .tc main_arg12) = (m ((c.tc : Thread nD τ).loc main_arg12)) := (W4_of_ne m ρ c main_arg12 (by decide)).trans (w3_arg12 m ρ c)

/-! ## After the third stretch -/

theorem w5_mean (c : Dev nD) : W5 m ρ c (Proc.devRef .tc main_v68) = avg m c (L2 m c) :=
  (mean2 (W4 m ρ c)).trans (by rw [w4_src, w4_dst, w4_out])
theorem w5_A (c : Dev nD) : W5 m ρ c (Proc.devRef .tc main_v69) = (tr (m ((c.tc : Thread nD τ).loc main_arg8))) := (matA2 (W4 m ρ c)).trans (by rw [w4_arg8, transpose_eq])
theorem w5_b (c : Dev nD) : W5 m ρ c (Proc.devRef .tc main_v71) = (asRow (m ((c.tc : Thread nD τ).loc main_arg9))) := (bias2 (W4 m ρ c)).trans (by rw [w4_arg9, castRow_eq])
theorem w5_C (c : Dev nD) : W5 m ρ c (Proc.devRef .tc main_v70) = (tr (m ((c.tc : Thread nD τ).loc main_arg10))) := (matC2 (W4 m ρ c)).trans (by rw [w4_arg10, transpose_eq])
theorem w5_out (c : Dev nD) : W5 m ρ c (Proc.devRef .tc main_v49) = L2 m c := ((keep2 (W4 m ρ c)).1).trans (w4_out m ρ c)
theorem w5_arg11 (c : Dev nD) : W5 m ρ c (Proc.devRef .tc main_arg11) = (m ((c.tc : Thread nD τ).loc main_arg11)) := ((keep2 (W4 m ρ c)).2.1).trans (w4_arg11 m ρ c)
theorem w5_arg12 (c : Dev nD) : W5 m ρ c (Proc.devRef .tc main_arg12) = (m ((c.tc : Thread nD τ).loc main_arg12)) := ((keep2 (W4 m ρ c)).2.2).trans (w4_arg12 m ρ c)

/-! ## After the third layer's region -/

theorem w6_out (c : Dev nD) : W6 m ρ c (Proc.devRef .tc main_v72) = L3 m c := by
  refine (W6_arr m ρ c 5).trans ((Region2.final (V5 m ρ) c).trans ?_)
  show combine (W5 m ρ c (Proc.devRef .tc main_v68)) (W5 m ρ c (Proc.devRef .tc main_v49)) (W5 m ρ c (Proc.devRef .tc main_v69))
    (W5 m ρ c (Proc.devRef .tc main_v71)) (W5 m ρ c (Proc.devRef .tc main_v70)) = _
  rw [w5_mean, w5_out, w5_A, w5_b, w5_C]
  rfl
theorem w6_arg11 (c : Dev nD) : W6 m ρ c (Proc.devRef .tc main_arg11) = (m ((c.tc : Thread nD τ).loc main_arg11)) := (W6_of_ne m ρ c main_arg11 (by decide)).trans (w5_arg11 m ρ c)
theorem w6_arg12 (c : Dev nD) : W6 m ρ c (Proc.devRef .tc main_arg12) = (m ((c.tc : Thread nD τ).loc main_arg12)) := (W6_of_ne m ρ c main_arg12 (by decide)).trans (w5_arg12 m ρ c)

/-! ## After the last stretch, and the head's region -/

theorem w7_col (c : Dev nD) : W7 m ρ c (Proc.devRef .tc main_v73) = tr (m ((c.tc : Thread nD τ).loc main_arg11)) :=
  (col3 (W6 m ρ c)).trans (by rw [w6_arg11, transposeCol_eq])
theorem w7_b (c : Dev nD) : W7 m ρ c (Proc.devRef .tc main_v74) = asRow (m ((c.tc : Thread nD τ).loc main_arg12)) :=
  (bias3 (W6 m ρ c)).trans (by rw [w6_arg12, castCell_eq])
theorem w7_out (c : Dev nD) : W7 m ρ c (Proc.devRef .tc main_v72) = L3 m c := (keep3 (W6 m ρ c)).trans (w6_out m ρ c)

/-- The result array at the last boundary: the net of the launch's arguments. -/
theorem result (c : Dev nD) :
    W8 m ρ c (Proc.devRef .tc main_v75) =
      net (avg m c) (m ((c.tc : Thread nD τ).loc main_arg0)) (tr (m ((c.tc : Thread nD τ).loc main_arg2))) (asRow (m ((c.tc : Thread nD τ).loc main_arg3))) (tr (m ((c.tc : Thread nD τ).loc main_arg4))) (tr (m ((c.tc : Thread nD τ).loc main_arg5))) (asRow (m ((c.tc : Thread nD τ).loc main_arg6))) (tr (m ((c.tc : Thread nD τ).loc main_arg7))) (tr (m ((c.tc : Thread nD τ).loc main_arg8))) (asRow (m ((c.tc : Thread nD τ).loc main_arg9))) (tr (m ((c.tc : Thread nD τ).loc main_arg10)))
        (tr (m ((c.tc : Thread nD τ).loc main_arg11))) (asRow (m ((c.tc : Thread nD τ).loc main_arg12))) := by
  refine (W8_arr m ρ c 3).trans ((Region3.final (V7 m ρ) c).trans ?_)
  show head (W7 m ρ c (Proc.devRef .tc main_v72)) (W7 m ρ c (Proc.devRef .tc main_v73)) (W7 m ρ c (Proc.devRef .tc main_v74)) = _
  rw [w7_out, w7_col, w7_b]
  rfl

end Cert.KernelIdeal.KValue

end
-- ==== Proof.RefValue.lean ====
/-
  The reference's result as three layers and a head over the mean of each node's incoming edges.

  The reference reads the edge list's two rows as source and target words, and at each layer gathers the source rows of
  the node table, adds them into their target rows, divides by the number of edges into each row (at least one), and
  sends the quotient "mean" and the table h to relu((mean·Wlᵀ + b) + h·Wrᵀ); the head is h·Wfᵀ + β. Its run's result
  term is exactly that composition, so it is the net of the pure layer functions: at an entry a host product is the sum
  over the contracted coordinate, the bias row laid along the rows reads its entry of the same column, relu is the
  maximum with zero, and the three summands of a layer commute.
-/
import proofs.«123665_j2534030704731_1_alg».proof.Proof.Gen.ReferenceIdeal.Run
import proofs.«123665_j2534030704731_1_alg».proof.Proof.Spec
import proofs.«123665_j2534030704731_1_alg».proof.Proof.LibDenseLayer
import Idealize.ShloMosaic.Lib.Pipeline.Value
import Idealize.ShloMosaic.Lib.ValueLayout
import Idealize.ShloMosaic.Lib.KernelVsHost

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.Sage

/-- The source words of the edges: row 0 of the edge list. -/
def srcW (ei : IVec S2x800000 32) : IVec S800000 32 :=
  shapeCast _ (extractStridedSlice S1x800000 ![0, 0] ei slices_S2x800000_S1x800000_0_0) shapeCasts_S1x800000_S800000

/-- The target words of the edges: row 1 of the edge list. -/
def dstW (ei : IVec S2x800000 32) : IVec S800000 32 :=
  shapeCast _ (extractStridedSlice S1x800000 ![1, 0] ei slices_S2x800000_S1x800000_1_0) shapeCasts_S1x800000_S800000

/-- The mean of a node table over each node's incoming edges: the source rows (a negative word wrapped by the table's
    length) added into their target rows, divided by the count of edges into the row or by one where there is none. -/
def meanOf (s d : IVec S800000 32) (h : FVec Ideal S50000x128 .f32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 d)
            (broadcastInDim S800000 ![] bcast_S_S800000 (constant S_ .f32 0x3F800000#32)))
          (broadcastInDim S50000 ![] bcast_S_S50000 (constant S_ .f32 0x3F800000#32)))))

/-- One layer as the reference spells it. -/
def refLayer (mean h : FVec Ideal S50000x128 .f32) (Wl : FVec Ideal S128x128 .f32) (bl : FVec Ideal S128 .f32)
    (Wr : FVec Ideal S128x128 .f32) : FVec Ideal S50000x128 .f32 :=
  maximumf
    (addf
      (addf
        (Host.dotGeneral dot_S50000x128_S128x128_S50000x128_1_0_0_1_n_n none mean
          (transpose S128x128 [1, 0] Wl transposes_S128x128_S128x128_1_0))
        (broadcastInDim S50000x128 ![0, 1] bcast_S1x128_S50000x128_0_1 (broadcastInDim S1x128 ![1] bcast_S128_S1x128_1 bl)))
      (Host.dotGeneral dot_S50000x128_S128x128_S50000x128_1_0_0_1_n_n none h
        (transpose S128x128 [1, 0] Wr transposes_S128x128_S128x128_1_0)))
    (broadcastInDim S50000x128 ![] bcast_S_S50000x128 (constant S_ .f32 0x00000000#32))

/-- The head as the reference spells it. -/
def refHead (h : FVec Ideal S50000x128 .f32) (Wf : FVec Ideal S1x128 .f32) (bf : FVec Ideal S1 .f32) :
    FVec Ideal S50000x1 .f32 :=
  addf
    (Host.dotGeneral dot_S50000x128_S128x1_S50000x1_1_0_0_1_n_n none h
      (transpose S128x1 [1, 0] Wf transposes_S1x128_S128x1_1_0))
    (broadcastInDim S50000x1 ![0, 1] bcast_S1x1_S50000x1_0_1 (broadcastInDim S1x1 ![1] bcast_S1_S1x1_1 bf))

/-- The reference run's result term is the three layers and the head, composed. -/
theorem res_eq (m : (ℓ : Loc nD τ sig) → Buf (Elt Ideal) ℓ) (c : Dev nD) :
    res_main_v92 m c =
      refHead
        (refLayer
          (meanOf (srcW (m ((c.tc : Thread nD τ).loc main_arg1))) (dstW (m ((c.tc : Thread nD τ).loc main_arg1)))
            (refLayer
              (meanOf (srcW (m ((c.tc : Thread nD τ).loc main_arg1))) (dstW (m ((c.tc : Thread nD τ).loc main_arg1)))
                (refLayer
                  (meanOf (srcW (m ((c.tc : Thread nD τ).loc main_arg1))) (dstW (m ((c.tc : Thread nD τ).loc main_arg1)))
                    (m ((c.tc : Thread nD τ).loc main_arg0)))
                  (m ((c.tc : Thread nD τ).loc main_arg0)) (m ((c.tc : Thread nD τ).loc main_arg2))
                  (m ((c.tc : Thread nD τ).loc main_arg3)) (m ((c.tc : Thread nD τ).loc main_arg4))))
              (refLayer
                (meanOf (srcW (m ((c.tc : Thread nD τ).loc main_arg1))) (dstW (m ((c.tc : Thread nD τ).loc main_arg1)))
                  (m ((c.tc : Thread nD τ).loc main_arg0)))
                (m ((c.tc : Thread nD τ).loc main_arg0)) (m ((c.tc : Thread nD τ).loc main_arg2))
                (m ((c.tc : Thread nD τ).loc main_arg3)) (m ((c.tc : Thread nD τ).loc main_arg4)))
              (m ((c.tc : Thread nD τ).loc main_arg5)) (m ((c.tc : Thread nD τ).loc main_arg6))
              (m ((c.tc : Thread nD τ).loc main_arg7))))
          (refLayer
            (meanOf (srcW (m ((c.tc : Thread nD τ).loc main_arg1))) (dstW (m ((c.tc : Thread nD τ).loc main_arg1)))
              (refLayer
                (meanOf (srcW (m ((c.tc : Thread nD τ).loc main_arg1))) (dstW (m ((c.tc : Thread nD τ).loc main_arg1)))
                  (m ((c.tc : Thread nD τ).loc main_arg0)))
                (m ((c.tc : Thread nD τ).loc main_arg0)) (m ((c.tc : Thread nD τ).loc main_arg2))
                (m ((c.tc : Thread nD τ).loc main_arg3)) (m ((c.tc : Thread nD τ).loc main_arg4))))
            (refLayer
              (meanOf (srcW (m ((c.tc : Thread nD τ).loc main_arg1))) (dstW (m ((c.tc : Thread nD τ).loc main_arg1)))
                (m ((c.tc : Thread nD τ).loc main_arg0)))
              (m ((c.tc : Thread nD τ).loc main_arg0)) (m ((c.tc : Thread nD τ).loc main_arg2))
              (m ((c.tc : Thread nD τ).loc main_arg3)) (m ((c.tc : Thread nD τ).loc main_arg4)))
            (m ((c.tc : Thread nD τ).loc main_arg5)) (m ((c.tc : Thread nD τ).loc main_arg6))
            (m ((c.tc : Thread nD τ).loc main_arg7)))
          (m ((c.tc : Thread nD τ).loc main_arg8)) (m ((c.tc : Thread nD τ).loc main_arg9))
          (m ((c.tc : Thread nD τ).loc main_arg10)))
        (m ((c.tc : Thread nD τ).loc main_arg11)) (m ((c.tc : Thread nD τ).loc main_arg12)) := by
  unfold res_main_v92 refHead refLayer meanOf srcW dstW
  rfl

/-- A scalar laid over every entry of a table reads the scalar. -/
theorem zeros_apply (j : S50000x128.Idx) :
    broadcastInDim S50000x128 ![] bcast_S_S50000x128 (constant (F := Ideal) S_ .f32 0x00000000#32) j = (0 : EReal) :=
  (broadcastInDim_apply ![] bcast_S_S50000x128 _ j ix0 (fun a => a.elim0)).trans Ideal.ofBits_zero_f32

/-- The reference's layer at (p, q): the pure layer over the transposed matrices and the bias laid out as one row. -/
theorem refLayer_apply (mean h : FVec Ideal S50000x128 .f32) (Wl : FVec Ideal S128x128 .f32) (bl : FVec Ideal S128 .f32)
    (Wr : FVec Ideal S128x128 .f32) (p : Fin 50000) (q : Fin 128) :
    refLayer mean h Wl bl Wr (ix2 p q)
      = combineAt mean h (transpose S128x128 [1, 0] Wl transposes_S128x128_S128x128_1_0)
          (broadcastInDim S1x128 ![1] bcast_S128_S1x128_1 bl)
          (transpose S128x128 [1, 0] Wr transposes_S128x128_S128x128_1_0) p q := by
  refine Eq.trans ?_ (combineAt_eq_bias_first mean h _ _ _ p q)
  unfold refLayer
  rw [maximumf_apply, addf_apply, addf_apply, zeros_apply]
  refine congrArg₂ max (congrArg₂ (· + ·) (congrArg₂ (· + ·) ?_ ?_) ?_) rfl
  · exact DenseLayer.dotGeneral_rows_apply _ none .single mean _ p q
  · exact broadcastInDim_oneRow_apply _ _ p q
  · exact DenseLayer.dotGeneral_rows_apply _ none .single h _ p q

/-- The reference's layer is the pure layer, as tables. -/
theorem refLayer_eq (mean h : FVec Ideal S50000x128 .f32) (Wl : FVec Ideal S128x128 .f32) (bl : FVec Ideal S128 .f32)
    (Wr : FVec Ideal S128x128 .f32) :
    refLayer mean h Wl bl Wr
      = combine mean h (transpose S128x128 [1, 0] Wl transposes_S128x128_S128x128_1_0)
          (broadcastInDim S1x128 ![1] bcast_S128_S1x128_1 bl)
          (transpose S128x128 [1, 0] Wr transposes_S128x128_S128x128_1_0) := by
  funext j
  rw [eq_ix2 j]
  exact refLayer_apply mean h Wl bl Wr (j 0) (j 1)

/-- The reference's head at (p, z), z the column's one index: the pure head over the transposed row and the bias laid out as a 1×1 table. -/
theorem refHead_apply (h : FVec Ideal S50000x128 .f32) (Wf : FVec Ideal S1x128 .f32) (bf : FVec Ideal S1 .f32)
    (p : Fin 50000) (z : Fin 1) :
    refHead h Wf bf (ix2 p z)
      = headAt h (transpose S128x1 [1, 0] Wf transposes_S1x128_S128x1_1_0)
          (broadcastInDim S1x1 ![1] bcast_S1_S1x1_1 bf) p := by
  obtain rfl : z = 0 := Subsingleton.elim _ _
  unfold refHead headAt
  rw [addf_apply]
  refine congrArg₂ (· + ·) ?_ ?_
  · exact DenseLayer.dotGeneral_rows_apply _ none .single h _ p 0
  · exact broadcastInDim_oneRow_apply _ _ p 0

/-- The reference's head is the pure head, as columns. -/
theorem refHead_eq (h : FVec Ideal S50000x128 .f32) (Wf : FVec Ideal S1x128 .f32) (bf : FVec Ideal S1 .f32) :
    refHead h Wf bf
      = head h (transpose S128x1 [1, 0] Wf transposes_S1x128_S128x1_1_0) (broadcastInDim S1x1 ![1] bcast_S1_S1x1_1 bf) := by
  funext j
  rw [eq_ix2 j]
  exact refHead_apply h Wf bf (j 0) (j 1)

/-- The host's transposed matrix is the matrix transposed. -/
theorem transpose_eq (M : FVec Ideal S128x128 .f32) :
    transpose S128x128 [1, 0] M transposes_S128x128_S128x128_1_0 = tr M := by
  funext j
  rw [eq_ix2 j]
  exact transpose_ix2_apply M _ (j 0) (j 1)

/-- The head's row transposed is its column. -/
theorem transposeCol_eq (M : FVec Ideal S1x128 .f32) :
    transpose S128x1 [1, 0] M transposes_S1x128_S128x1_1_0 = tr M := by
  funext j
  rw [eq_ix2 j]
  exact transpose_ix2_apply M _ (j 0) (j 1)

/-- A bias vector laid along the row's axis is the vector as one row. -/
theorem biasRow_eq (v : FVec Ideal S128 .f32) : broadcastInDim S1x128 ![1] bcast_S128_S1x128_1 v = asRow v := by
  funext j
  rw [eq_ix2 j]
  exact DenseLayer.broadcastInDim_vec_row_apply _ v (j 0) (j 1)

/-- The head's bias laid out as a 1×1 table is the vector as one row. -/
theorem biasCell_eq (v : FVec Ideal S1 .f32) : broadcastInDim S1x1 ![1] bcast_S1_S1x1_1 v = asRow v := by
  funext j
  rw [eq_ix2 j]
  exact DenseLayer.broadcastInDim_vec_row_apply _ v (j 0) (j 1)

/-- The reference's layer over the matrices as given and the bias as a vector. -/
theorem refLayer_net (mean h : FVec Ideal S50000x128 .f32) (Wl : FVec Ideal S128x128 .f32) (bl : FVec Ideal S128 .f32)
    (Wr : FVec Ideal S128x128 .f32) : refLayer mean h Wl bl Wr = combine mean h (tr Wl) (asRow bl) (tr Wr) := by
  rw [refLayer_eq, transpose_eq, transpose_eq, biasRow_eq]

/-- The reference's head over the head's row as given and its bias as a vector. -/
theorem refHead_net (h : FVec Ideal S50000x128 .f32) (Wf : FVec Ideal S1x128 .f32) (bf : FVec Ideal S1 .f32) :
    refHead h Wf bf = head h (tr Wf) (asRow bf) := by
  rw [refHead_eq, transposeCol_eq, biasCell_eq]

/-- The reference run's result: the net over the mean of incoming edges, the matrices transposed, the biases as rows. -/
theorem res_net (m : (ℓ : Loc nD τ sig) → Buf (Elt Ideal) ℓ) (c : Dev nD) :
    res_main_v92 m c =
      net (meanOf (srcW (m ((c.tc : Thread nD τ).loc main_arg1))) (dstW (m ((c.tc : Thread nD τ).loc main_arg1))))
        (m ((c.tc : Thread nD τ).loc main_arg0))
        (tr (m ((c.tc : Thread nD τ).loc main_arg2))) (asRow (m ((c.tc : Thread nD τ).loc main_arg3)))
        (tr (m ((c.tc : Thread nD τ).loc main_arg4)))
        (tr (m ((c.tc : Thread nD τ).loc main_arg5))) (asRow (m ((c.tc : Thread nD τ).loc main_arg6)))
        (tr (m ((c.tc : Thread nD τ).loc main_arg7)))
        (tr (m ((c.tc : Thread nD τ).loc main_arg8))) (asRow (m ((c.tc : Thread nD τ).loc main_arg9)))
        (tr (m ((c.tc : Thread nD τ).loc main_arg10)))
        (tr (m ((c.tc : Thread nD τ).loc main_arg11))) (asRow (m ((c.tc : Thread nD τ).loc main_arg12))) := by
  rw [res_eq m c]
  simp only [net, step, refHead_net, refLayer_net]

end Cert.ReferenceIdeal.RefValue

end
-- ==== Proof.lean ====
/-
  The proof of Cert.Claim for three mean-aggregation graph layers and a linear head.

  Both programs average the node table over each node's incoming edges with the same host operations (gather the
  source rows, add them into their target rows, divide by the edge count or one). The kernel program then runs each
  layer as a kernel over blocks of 5000 rows, relu((mean·Wlᵀ + h·Wrᵀ) + b), and the head as a kernel, h·Wfᵀ + β; the
  reference computes relu((mean·Wlᵀ + b) + h·Wrᵀ) and h·Wfᵀ + β on the host. At the exact values the narrowing of a
  kernel's operands is the identity, a product is the sum over the contracted coordinate on either side, a row of a
  product depends on that row of its left operand only (so the blocks of rows tile the whole product), and the three
  summands of a layer commute. Hence both results are one function, the net of the pure layer functions, of the
  arguments. No ledger entry: the idealized kernel is the kernel's own text read at the exact values.
-/
import proofs.«123665_j2534030704731_1_alg».proof.Defs
import proofs.«123665_j2534030704731_1_alg».proof.Proof.Gen.Kernel
import proofs.«123665_j2534030704731_1_alg».proof.Proof.Gen.Kernel.Skeleton
import proofs.«123665_j2534030704731_1_alg».proof.Proof.Gen.Kernel.Launch
import proofs.«123665_j2534030704731_1_alg».proof.Proof.Gen.Kernel.Points
import proofs.«123665_j2534030704731_1_alg».proof.Proof.Gen.Kernel.Frame
import proofs.«123665_j2534030704731_1_alg».proof.Proof.Gen.KernelIdeal
import proofs.«123665_j2534030704731_1_alg».proof.Proof.Gen.KernelIdeal.Skeleton
import proofs.«123665_j2534030704731_1_alg».proof.Proof.Gen.KernelIdeal.Launch
import proofs.«123665_j2534030704731_1_alg».proof.Proof.Gen.KernelIdeal.Points
import proofs.«123665_j2534030704731_1_alg».proof.Proof.Gen.KernelIdeal.Frame
import proofs.«123665_j2534030704731_1_alg».proof.Proof.Gen.ReferenceIdeal
import proofs.«123665_j2534030704731_1_alg».proof.Proof.Gen.ReferenceIdeal.Run
import proofs.«123665_j2534030704731_1_alg».proof.Proof.Gen.Pre_finite_inputs
import proofs.«123665_j2534030704731_1_alg».proof.Proof.KernelRun
import proofs.«123665_j2534030704731_1_alg».proof.Proof.KernelValue
import proofs.«123665_j2534030704731_1_alg».proof.Proof.RefValue
import Idealize.ShloMosaic.Adequacy
import Idealize.ShloMosaic.Init

noncomputable section

namespace Cert.Proof

open Idealize.ShloMosaic Idealize.ShloMosaic.TcCoe Idealize.SL.Sem

/-- The two programs' averaging operators are one function: the same operations over the same edge words. -/
theorem avg_eq (ei : IVec Cert.KernelIdeal.S2x800000 32) :
    Cert.ReferenceIdeal.RefValue.meanOf (Cert.ReferenceIdeal.RefValue.srcW ei) (Cert.ReferenceIdeal.RefValue.dstW ei)
      = Cert.KernelIdeal.Stretch.meanOf (Cert.KernelIdeal.Stretch.srcW ei) (Cert.KernelIdeal.Stretch.dstW ei) := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the net of the arguments, which agree. -/
theorem algebraic : Cert.algebraic_KernelIdeal_ReferenceIdeal := by
  intro m ρ m' ρ' _ hagree
  refine ⟨fun c => Cert.KernelIdeal.Gen.W8 m ρ c (Proc.devRef .tc Cert.KernelIdeal.main_v75),
    Cert.KernelIdeal.GenRun.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.res_net m' c).trans (Eq.trans ?_ (Cert.KernelIdeal.KValue.result m ρ c).symm)
  obtain ⟨h0, h1, h2, h3, h4, h5, h6, h7, h8, h9, h10, h11, h12⟩ := hagree c
  rw [h0, h1, h2, h3, h4, h5, h6, h7, h8, h9, h10, h11, h12]
  exact congrArg (fun a => Cert.Sage.net a _ _ _ _ _ _ _ _ _ _ _ _) (avg_eq _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
